-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S100000x128 : S_.BroadcastsInDim S100000x128 (![] : Fin 0 → Fin S100000x128.rank)
  reducesTo_S100000x128_S_d0_1 : S100000x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S4096x256 .f32) (main_arg1 : FVec F S100000x256 .f32) (main_arg2 : FVec F S100000x128 .f32) (main_arg3 : FVec F S128x32 .f32) (main_arg4 : FVec F S32 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_v13 main_v16
-- ==== Kernel.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S1x32 : Shape := ⟨2, ![1, 32]⟩
abbrev S4096x32 : Shape := ⟨2, ![4096, 32]⟩
abbrev S10000x256 : Shape := ⟨2, ![10000, 256]⟩
abbrev S10000x128 : Shape := ⟨2, ![10000, 128]⟩
abbrev S256x32 : Shape := ⟨2, ![256, 32]⟩
abbrev S10000x32 : Shape := ⟨2, ![10000, 32]⟩

abbrev nBuf : Space → Nat
  | .hbm => 7
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S100000x128, .f32⟩
  | .hbm, ⟨3, _⟩ => ⟨S128x32, .f32⟩
  | .hbm, ⟨4, _⟩ => ⟨S32, .f32⟩
  | .hbm, ⟨5, _⟩ => ⟨S1x32, .f32⟩
  | .hbm, ⟨6, _⟩ => ⟨S4096x32, .f32⟩
  | .local _ .vmem, ⟨0, _⟩ => ⟨S10000x256, .f32⟩
  | .local _ .vmem, ⟨1, _⟩ => ⟨S10000x256, .f32⟩
  | .local _ .vmem, ⟨2, _⟩ => ⟨S10000x128, .f32⟩
  | .local _ .vmem, ⟨3, _⟩ => ⟨S10000x128, .f32⟩
  | .local _ .vmem, ⟨4, _⟩ => ⟨S128x32, .f32⟩
  | .local _ .vmem, ⟨5, _⟩ => ⟨S1x32, .f32⟩
  | .local _ .vmem, ⟨6, _⟩ => ⟨S4096x256, .f32⟩
  | .local _ .vmem, ⟨7, _⟩ => ⟨S4096x32, .f32⟩
  | .local _ .vmem, ⟨8, _⟩ => ⟨S256x32, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S32_S1x32 : S32.ShapeCasts S1x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S4096x32_S4096x32_0_0 : ∀ a, (![0, 0] : Fin 2 → Nat) a + S4096x32.size a ≤ S4096x32.size a
  h_S4096x32 : 0 < S4096x32.numel
  dot_S10000x128_S128x32_S10000x32_1_0_0_1_n_n_wf : DotDims.WF S10000x128 S128x32 S10000x32 [1] [0] [0] [1] [] []
  dot_S10000x256_S10000x32_S256x32_0_0_1_1_n_n_wf : DotDims.WF S10000x256 S10000x32 S256x32 [0] [0] [1] [1] [] []
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x256.size a
  hwx0_4 : ∀ i : grid0.Coords, EltTy.bits .f32 = 32 ∨ (Rect.block (s := S4096x256) S4096x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x32.size a ≤ S4096x32.size a
  hwx0_5 : ∀ i : grid0.Coords, EltTy.bits .f32 = 32 ∨ (Rect.block (s := S4096x32) S4096x32.size (cc0_transform_5 i) (hinb0_5 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x256_S10000x32_S256x32_0_0_1_1_n_n : DotDims S10000x256 S10000x32 S256x32 where
  lhsContracting := [0]
  rhsContracting := [0]
  lhsNonContracting := [1]
  rhsNonContracting := [1]
  lhsBatch := []
  rhsBatch := []
  wf := dot_S10000x256_S10000x32_S256x32_0_0_1_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_arg1) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4096x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x32.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S100000x32 : Shape := ⟨2, ![100000, 32]⟩
abbrev S1x32 : Shape := ⟨2, ![1, 32]⟩
abbrev S_ : Shape := ⟨0, ![]⟩
abbrev S256x100000 : Shape := ⟨2, ![256, 100000]⟩
abbrev S256x32 : Shape := ⟨2, ![256, 32]⟩
abbrev S4096x32 : Shape := ⟨2, ![4096, 32]⟩

abbrev nBuf : Space → Nat
  | .hbm => 21
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S100000x128, .f32⟩
  | .hbm, ⟨3, _⟩ => ⟨S128x32, .f32⟩
  | .hbm, ⟨4, _⟩ => ⟨S32, .f32⟩
  | .hbm, ⟨5, _⟩ => ⟨S100000x32, .f32⟩
  | .hbm, ⟨6, _⟩ => ⟨S1x32, .f32⟩
  | .hbm, ⟨7, _⟩ => ⟨S100000x32, .f32⟩
  | .hbm, ⟨8, _⟩ => ⟨S100000x32, .f32⟩
  | .hbm, ⟨9, _⟩ => ⟨S100000x32, .f32⟩
  | .hbm, ⟨10, _⟩ => ⟨S100000x32, .f32⟩
  | .hbm, ⟨11, _⟩ => ⟨S_, .f32⟩
  | .hbm, ⟨12, _⟩ => ⟨S100000x32, .f32⟩
  | .hbm, ⟨13, _⟩ => ⟨S100000x32, .f32⟩
  | .hbm, ⟨14, _⟩ => ⟨S_, .f32⟩
  | .hbm, ⟨15, _⟩ => ⟨S100000x32, .f32⟩
  | .hbm, ⟨16, _⟩ => ⟨S100000x32, .f32⟩
  | .hbm, ⟨17, _⟩ => ⟨S100000x32, .f32⟩
  | .hbm, ⟨18, _⟩ => ⟨S256x100000, .f32⟩
  | .hbm, ⟨19, _⟩ => ⟨S256x32, .f32⟩
  | .hbm, ⟨20, _⟩ => ⟨S4096x32, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S100000x256_S256x100000_1_0 : S100000x256.Transposes [1, 0] S256x100000
  dot_S100000x128_S128x32_S100000x32_1_0_0_1_n_n_wf : DotDims.WF S100000x128 S128x32 S100000x32 [1] [0] [0] [1] [] []
  dot_S256x100000_S100000x32_S256x32_1_0_0_1_n_n_wf : DotDims.WF S256x100000 S100000x32 S256x32 [1] [0] [0] [1] [] []
  dot_S4096x256_S256x32_S4096x32_1_0_0_1_n_n_wf : DotDims.WF S4096x256 S256x32 S4096x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S256x100000_S100000x32_S256x32_1_0_0_1_n_n : DotDims S256x100000 S100000x32 S256x32 where
  lhsContracting := [1]
  rhsContracting := [0]
  lhsNonContracting := [0]
  rhsNonContracting := [1]
  lhsBatch := []
  rhsBatch := []
  wf := dot_S256x100000_S100000x32_S256x32_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

class Facts : Prop extends Facts₀ where

variable [Facts]
-- ==== Proof.Spec.lean ====
/-
  The function both programs compute, over the extended reals.

  A card n has an embedding row card[n, ·] of 128 entries; a dense layer W (128 × 32) with bias b maps it to
  z[n, q] = Σ_k card[n, k] · W[k, q] + b[q], and the swish activation to t[n, q] = z · σ(z), where σ(z) = 1 / (1 + e^(-z)).
  A metapath column p weighs the cards: path[p, q] = Σ_n meta[n, p] · t[n, q], a sum over all 100 000 cards.
  A pool row i weighs the metapaths: out[i, q] = Σ_p pools[i, p] · path[p, q].
  Every sum is a finite sum in the additive commutative monoid of the extended reals, so it may be taken in any
  grouping; no finiteness of the entries is used.
-/
import Idealize.ShloMosaic.PureOps.Ideal
import Idealize.ShloMosaic.Lib.ValueIdx

noncomputable section

open scoped BigOperators

namespace Cert.MetaPath

open Idealize.ShloMosaic Idealize.ShloMosaic.ValueIdx

/-- The swish activation z · σ(z) on the extended reals, σ the logistic function 1 / (1 + e^(-z)). -/
def swish (z : EReal) : EReal := z * Ideal.logistic z

/-- The logistic function is the quotient 1 / (1 + e^(-z)), with the conventions of the quotient and of the exponential
    at the infinities: by definition. -/
theorem logistic_eq_div (z : EReal) : Ideal.logistic z = Ideal.div 1 (1 + Ideal.exp (-z)) := rfl

/-- The dense layer with swish, at card n and output column q. -/
def dense (card : (⟨2, ![100000, 128]⟩ : Shape).Idx → EReal) (W : (⟨2, ![128, 32]⟩ : Shape).Idx → EReal)
    (b : (⟨1, ![32]⟩ : Shape).Idx → EReal) (n : Fin 100000) (q : Fin 32) : EReal :=
  swish ((∑ k : Fin 128, card (ix2 n k) * W (ix2 k q)) + b (ix1 q))

/-- The metapath embedding at metapath p and column q: the cards' transformed rows weighed by column p of the
    metapath matrix. -/
def pathEmb (mp : (⟨2, ![100000, 256]⟩ : Shape).Idx → EReal) (card : (⟨2, ![100000, 128]⟩ : Shape).Idx → EReal)
    (W : (⟨2, ![128, 32]⟩ : Shape).Idx → EReal) (b : (⟨1, ![32]⟩ : Shape).Idx → EReal) (p : Fin 256) (q : Fin 32) : EReal :=
  ∑ n : Fin 100000, mp (ix2 n p) * dense card W b n q

/-- The result: pool row i against the metapath embeddings. -/
def result (pools : (⟨2, ![4096, 256]⟩ : Shape).Idx → EReal) (mp : (⟨2, ![100000, 256]⟩ : Shape).Idx → EReal)
    (card : (⟨2, ![100000, 128]⟩ : Shape).Idx → EReal) (W : (⟨2, ![128, 32]⟩ : Shape).Idx → EReal)
    (b : (⟨1, ![32]⟩ : Shape).Idx → EReal) : (⟨2, ![4096, 32]⟩ : Shape).Idx → EReal :=
  fun j => ∑ p : Fin 256, pools (ix2 (j 0) p) * pathEmb mp card W b p (j 1)

end Cert.MetaPath

end
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.Pieces.lean ====
/-
  What one grid point leaves behind, case by case.

  The body stores into its 256 × 32 accumulator (and, at the last point, into the 4096 × 32 output block) values that
  are pure functions of what it loaded. At the first point it first stores the zero block and adds to that; at the
  other points it adds to what the point before left; at the last point it then multiplies the pool block by the
  accumulator it has just stored. Each statement below says that what a case leaves in a buffer is that pure
  function of the point's input blocks (and of the accumulator the point found), for any values.
-/
import proofs.«150793_g73882027425809_cont_9to1c4b_278_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- A middle point leaves in the accumulator: what it found plus this block's contribution. -/
theorem acc_mid (c : Dev nD) (i : grid0.Coords) (arg1 : Memref sig .tc .vmem S10000x256 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : ¬cond0_0 i) (hc1 : ¬cond0_1 i) (x0 : Vec F S10000x256 .f32) (x1 : Vec F S10000x128 .f32) (x2 : Vec F S128x32 .f32) (x3 : Vec F S1x32 .f32) (x4 : Vec F S4096x256 .f32) (xs0 : Vec F S256x32 .f32) :
    sout0_B_0 c i arg1 harg1 arg2 harg2 arg3 harg3 arg4 harg4 arg5 harg5 arg6 harg6 arg7 harg7 hc0 hc1 x0 x1 x2 x3 x4 xs0 = k0_pay2 x1 x2 x3 xs0 x0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero origin]
  simp only [View.readAt_eq_ld, harg1.read_unread, harg2.read_unread, harg3.read_unread, harg4.read_unread, harg7.read_unread,
    View.ld_unit_zero (S := S10000x256) origin, View.ld_unit_zero (S := S10000x128) origin, View.ld_unit_zero (S := S128x32) origin,
    View.ld_unit_zero (S := S1x32) origin, View.ld_unit_zero (S := S256x32) origin]

/-- The last point leaves in the accumulator the same update of what it found. -/
theorem acc_last (c : Dev nD) (i : grid0.Coords) (arg1 : Memref sig .tc .vmem S10000x256 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : ¬cond0_0 i) (hc1 : cond0_1 i) (x0 : Vec F S10000x256 .f32) (x1 : Vec F S10000x128 .f32) (x2 : Vec F S128x32 .f32) (x3 : Vec F S1x32 .f32) (x4 : Vec F S4096x256 .f32) (xs0 : Vec F S256x32 .f32) :
    sout0_C_0 c i arg1 harg1 arg2 harg2 arg3 harg3 arg4 harg4 arg5 harg5 arg6 harg6 arg7 harg7 hc0 hc1 x0 x1 x2 x3 x4 xs0 = k0_pay2 x1 x2 x3 xs0 x0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero origin]
  simp only [View.readAt_eq_ld, harg1.read_unread, harg2.read_unread, harg3.read_unread, harg4.read_unread, harg7.read_unread,
    View.ld_unit_zero (S := S10000x256) origin, View.ld_unit_zero (S := S10000x128) origin, View.ld_unit_zero (S := S128x32) origin,
    View.ld_unit_zero (S := S1x32) origin, View.ld_unit_zero (S := S256x32) origin]

/-- The first point stores the zero block, reads it back, and leaves the update of that. -/
theorem acc_first (c : Dev nD) (i : grid0.Coords) (arg1 : Memref sig .tc .vmem S10000x256 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : cond0_0 i) (hc1 : ¬cond0_1 i) (x0 : Vec F S10000x256 .f32) (x1 : Vec F S10000x128 .f32) (x2 : Vec F S128x32 .f32) (x3 : Vec F S1x32 .f32) (x4 : Vec F S4096x256 .f32) :
    sout0_A_0 c i arg1 harg1 arg2 harg2 arg3 harg3 arg4 harg4 arg5 harg5 arg6 harg6 arg7 harg7 hc0 hc1 x0 x1 x2 x3 x4 = k0_pay2 x1 x2 x3 (k0_pay1 (F := F)) x0 := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S256x32) origin, View.readCov_unit_zero (S := S256x32) _ origin]
  simp only [View.readAt_eq_ld, harg1.read_unread, harg2.read_unread, harg3.read_unread, harg4.read_unread,
    View.ld_unit_zero (S := S10000x256) origin, View.ld_unit_zero (S := S10000x128) origin, View.ld_unit_zero (S := S128x32) origin,
    View.ld_unit_zero (S := S1x32) origin, View.ld_unit_zero (S := S256x32) origin]

/-- The last point leaves in the output block the pool block times the accumulator it has just updated. -/
theorem out_last (c : Dev nD) (i : grid0.Coords) (arg1 : Memref sig .tc .vmem S10000x256 .f32) (harg1 : arg1.IsWhole) (arg2 : Memref sig .tc .vmem S10000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : ¬cond0_0 i) (hc1 : cond0_1 i) (x0 : Vec F S10000x256 .f32) (x1 : Vec F S10000x128 .f32) (x2 : Vec F S128x32 .f32) (x3 : Vec F S1x32 .f32) (x4 : Vec F S4096x256 .f32) (xs0 : Vec F S256x32 .f32) :
    out0_C_5 c i arg1 harg1 arg2 harg2 arg3 harg3 arg4 harg4 arg5 harg5 arg6 harg6 arg7 harg7 hc0 hc1 x0 x1 x2 x3 x4 xs0 = k0_pay3 x4 (k0_pay2 x1 x2 x3 xs0 x0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero origin]
  simp only [View.readAt_eq_ld, harg1.read_unread, harg2.read_unread, harg3.read_unread, harg4.read_unread, harg5.read_unread, harg7.read_unread,
    View.ld_unit_zero (S := S10000x256) origin, View.ld_unit_zero (S := S10000x128) origin, View.ld_unit_zero (S := S128x32) origin,
    View.ld_unit_zero (S := S1x32) origin, View.ld_unit_zero (S := S256x32) origin, View.ld_unit_zero (S := S4096x256) origin,
    View.readCov_unit_zero (S := S256x32) _ origin]

end Cert.KernelIdeal.Pieces

end
-- ==== Proof.Payload.lean ====
/-
  The body's arithmetic read at one entry, over the extended reals.

  The body's three matrix products are sums of products over their one contracted axis: the card block times the dense
  weights contracts the 128 embedding coordinates; the metapath block (its rows the cards, its columns the metapaths)
  against the transformed block contracts the block's 10 000 rows, so metapath column p meets transformed column q;
  the pool block times the accumulator contracts the 256 metapaths. The change of float format before the second
  product is the identity on the extended reals, and the bias row is read at its column whatever the row.
  So the accumulator's update at (p, q) adds Σ_r meta[r, p] · swish(Σ_k card[r, k] · W[k, q] + b[q]) over the block's rows
  to what was there, and the output at (i, q) is Σ_p pools[i, p] · acc[p, q].
-/
import proofs.«150793_g73882027425809_cont_9to1c4b_278_4_alg».proof.Proof.Gen.KernelIdeal.Skeleton
import proofs.«150793_g73882027425809_cont_9to1c4b_278_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! ## The card block times the dense weights: row r of the block against column q of the weights -/

theorem cw_lhs_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem cw_lhs_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem cw_rhs_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem cw_rhs_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Entry (r, q) of the block's product with the weights, accumulated into zero: Σ_k x[r, k] · w[k, q]. -/
theorem cw_apply (x : FVec Ideal S10000x128 .f32) (w : FVec Ideal S128x32 .f32) (r : Fin 10000) (q : Fin 32) :
    matmul dot_S10000x128_S128x32_S10000x32_1_0_0_1_n_n none x w (constant S10000x32 .f32 0x00000000#32) (ix2 r q)
      = ∑ k : Fin 128, x (ix2 r k) * w (ix2 k q) := by
  simp only [matmul]
  rw [Ideal.matmul_constant_zero_apply, ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 r q) ((contrEquiv1 dot_S10000x128_S128x32_S10000x32_1_0_0_1_n_n 128 rfl rfl).symm k) = ix2 r k := funext fun a => Fin.ext (by
    match a with
    | ⟨0, _⟩ => exact cw_lhs_0 _ _
    | ⟨1, _⟩ => exact (cw_lhs_1 _ _).trans hk)
  have er : dot_S10000x128_S128x32_S10000x32_1_0_0_1_n_n.rhsIdx (ix2 r q) ((contrEquiv1 dot_S10000x128_S128x32_S10000x32_1_0_0_1_n_n 128 rfl rfl).symm k) = ix2 k q := funext fun a => Fin.ext (by
    match a with
    | ⟨0, _⟩ => exact (cw_rhs_0 _ _).trans hk
    | ⟨1, _⟩ => exact cw_rhs_1 _ _)
  rw [el, er]

/-! ## The metapath block against the transformed block, contracting the rows of both -/

theorem mt_lhs_0 (i : S256x32.Idx) (q : dot_S10000x256_S10000x32_S256x32_0_0_1_1_n_n.contr.Idx) :
    (dot_S10000x256_S10000x32_S256x32_0_0_1_1_n_n.lhsIdx i q 0).val = (q ⟨0, by decide⟩).val :=
  dot_S10000x256_S10000x32_S256x32_0_0_1_1_n_n.lhsIdx_val_of_single rfl i q
theorem mt_lhs_1 (i : S256x32.Idx) (q : dot_S10000x256_S10000x32_S256x32_0_0_1_1_n_n.contr.Idx) :
    (dot_S10000x256_S10000x32_S256x32_0_0_1_1_n_n.lhsIdx i q 1).val = (i 0).val := by
  unfold DotDims.lhsIdx
  rw [dif_neg (show ¬(1 : Fin S10000x256.rank) ∈ dot_S10000x256_S10000x32_S256x32_0_0_1_1_n_n.lhsBatch by decide), dif_pos (show (1 : Fin S10000x256.rank) ∈ dot_S10000x256_S10000x32_S256x32_0_0_1_1_n_n.lhsNonContracting by decide)]
  rfl
theorem mt_rhs_0 (i : S256x32.Idx) (q : dot_S10000x256_S10000x32_S256x32_0_0_1_1_n_n.contr.Idx) :
    (dot_S10000x256_S10000x32_S256x32_0_0_1_1_n_n.rhsIdx i q 0).val = (q ⟨0, by decide⟩).val :=
  dot_S10000x256_S10000x32_S256x32_0_0_1_1_n_n.rhsIdx_val_of_single rfl i q
theorem mt_rhs_1 (i : S256x32.Idx) (q : dot_S10000x256_S10000x32_S256x32_0_0_1_1_n_n.contr.Idx) :
    (dot_S10000x256_S10000x32_S256x32_0_0_1_1_n_n.rhsIdx i q 1).val = (i 1).val := by
  unfold DotDims.rhsIdx
  rw [dif_neg (show ¬(1 : Fin S10000x32.rank) ∈ dot_S10000x256_S10000x32_S256x32_0_0_1_1_n_n.rhsBatch by decide), dif_pos (show (1 : Fin S10000x32.rank) ∈ dot_S10000x256_S10000x32_S256x32_0_0_1_1_n_n.rhsNonContracting by decide)]
  rfl

/-- Entry (p, q) of the metapath block's transpose times the transformed block, accumulated into zero:
    Σ_r x[r, p] · y[r, q] over the block's rows, whatever the operands' float formats. -/
theorem mt_apply {φ₁ φ₂ : FTy} (x : FVec Ideal S10000x256 φ₁) (y : FVec Ideal S10000x32 φ₂) (p : Fin 256) (q : Fin 32) :
    matmul dot_S10000x256_S10000x32_S256x32_0_0_1_1_n_n none x y (constant S256x32 .f32 0x00000000#32) (ix2 p q)
      = ∑ r : Fin 10000, x (ix2 r p) * y (ix2 r q) := by
  simp only [matmul]
  rw [Ideal.matmul_constant_zero_apply, ← Equiv.sum_comp (contrEquiv1 dot_S10000x256_S10000x32_S256x32_0_0_1_1_n_n 10000 rfl rfl).symm]
  refine Finset.sum_congr rfl fun k _ => ?_
  have hk := contrEquiv1_symm_val dot_S10000x256_S10000x32_S256x32_0_0_1_1_n_n 10000 rfl rfl k
  have el : dot_S10000x256_S10000x32_S256x32_0_0_1_1_n_n.lhsIdx (ix2 p q) ((contrEquiv1 dot_S10000x256_S10000x32_S256x32_0_0_1_1_n_n 10000 rfl rfl).symm k) = ix2 k p := funext fun a => Fin.ext (by
    match a with
    | ⟨0, _⟩ => exact (mt_lhs_0 _ _).trans hk
    | ⟨1, _⟩ => exact mt_lhs_1 _ _)
  have er : dot_S10000x256_S10000x32_S256x32_0_0_1_1_n_n.rhsIdx (ix2 p q) ((contrEquiv1 dot_S10000x256_S10000x32_S256x32_0_0_1_1_n_n 10000 rfl rfl).symm k) = ix2 k q := funext fun a => Fin.ext (by
    match a with
    | ⟨0, _⟩ => exact (mt_rhs_0 _ _).trans hk
    | ⟨1, _⟩ => exact mt_rhs_1 _ _)
  rw [el, er]

/-! ## The pool block times the accumulator -/

theorem pa_lhs_0 (i : S4096x32.Idx) (q : dot_S4096x256_S256x32_S4096x32_1_0_0_1_n_n.contr.Idx) :
    (dot_S4096x256_S256x32_S4096x32_1_0_0_1_n_n.lhsIdx i q 0).val = (i 0).val := by
  unfold DotDims.lhsIdx
  rw [dif_neg (show ¬(0 : Fin S4096x256.rank) ∈ dot_S4096x256_S256x32_S4096x32_1_0_0_1_n_n.lhsBatch by decide), dif_pos (show (0 : Fin S4096x256.rank) ∈ dot_S4096x256_S256x32_S4096x32_1_0_0_1_n_n.lhsNonContracting by decide)]
  rfl
theorem pa_lhs_1 (i : S4096x32.Idx) (q : dot_S4096x256_S256x32_S4096x32_1_0_0_1_n_n.contr.Idx) :
    (dot_S4096x256_S256x32_S4096x32_1_0_0_1_n_n.lhsIdx i q 1).val = (q ⟨0, by decide⟩).val :=
  dot_S4096x256_S256x32_S4096x32_1_0_0_1_n_n.lhsIdx_val_of_single rfl i q
theorem pa_rhs_0 (i : S4096x32.Idx) (q : dot_S4096x256_S256x32_S4096x32_1_0_0_1_n_n.contr.Idx) :
    (dot_S4096x256_S256x32_S4096x32_1_0_0_1_n_n.rhsIdx i q 0).val = (q ⟨0, by decide⟩).val :=
  dot_S4096x256_S256x32_S4096x32_1_0_0_1_n_n.rhsIdx_val_of_single rfl i q
theorem pa_rhs_1 (i : S4096x32.Idx) (q : dot_S4096x256_S256x32_S4096x32_1_0_0_1_n_n.contr.Idx) :
    (dot_S4096x256_S256x32_S4096x32_1_0_0_1_n_n.rhsIdx i q 1).val = (i 1).val := by
  unfold DotDims.rhsIdx
  rw [dif_neg (show ¬(1 : Fin S256x32.rank) ∈ dot_S4096x256_S256x32_S4096x32_1_0_0_1_n_n.rhsBatch by decide), dif_pos (show (1 : Fin S256x32.rank) ∈ dot_S4096x256_S256x32_S4096x32_1_0_0_1_n_n.rhsNonContracting by decide)]
  rfl

/-- Entry (i, q) of the pool block's product with the accumulator, accumulated into zero: Σ_p x[i, p] · a[p, q]. -/
theorem pa_apply (x : FVec Ideal S4096x256 .f32) (a : FVec Ideal S256x32 .f32) (i : Fin 4096) (q : Fin 32) :
    matmul dot_S4096x256_S256x32_S4096x32_1_0_0_1_n_n none x a (constant S4096x32 .f32 0x00000000#32) (ix2 i q)
      = ∑ p : Fin 256, x (ix2 i p) * a (ix2 p q) := by
  simp only [matmul]
  rw [Ideal.matmul_constant_zero_apply, ← Equiv.sum_comp (contrEquiv1 dot_S4096x256_S256x32_S4096x32_1_0_0_1_n_n 256 rfl rfl).symm]
  refine Finset.sum_congr rfl fun k _ => ?_
  have hk := contrEquiv1_symm_val dot_S4096x256_S256x32_S4096x32_1_0_0_1_n_n 256 rfl rfl k
  have el : dot_S4096x256_S256x32_S4096x32_1_0_0_1_n_n.lhsIdx (ix2 i q) ((contrEquiv1 dot_S4096x256_S256x32_S4096x32_1_0_0_1_n_n 256 rfl rfl).symm k) = ix2 i k := funext fun a => Fin.ext (by
    match a with
    | ⟨0, _⟩ => exact pa_lhs_0 _ _
    | ⟨1, _⟩ => exact (pa_lhs_1 _ _).trans hk)
  have er : dot_S4096x256_S256x32_S4096x32_1_0_0_1_n_n.rhsIdx (ix2 i q) ((contrEquiv1 dot_S4096x256_S256x32_S4096x32_1_0_0_1_n_n 256 rfl rfl).symm k) = ix2 k q := funext fun a => Fin.ext (by
    match a with
    | ⟨0, _⟩ => exact (pa_rhs_0 _ _).trans hk
    | ⟨1, _⟩ => exact pa_rhs_1 _ _)
  rw [el, er]

/-! ## The three stored values at an entry -/

/-- The logistic function of a block, read at an entry, is the logistic function of the entry. -/
theorem logistic_apply {s : Shape} {φ : FTy} (a : FVec Ideal s φ) (i : s.Idx) : logistic a i = Ideal.logistic (a i) := rfl

/-- The block the first point resets the accumulator to is zero everywhere. -/
theorem reset_apply (j : S256x32.Idx) : k0_pay1 (F := Ideal) j = 0 := by
  unfold k0_pay1
  rw [shapeCast_self]
  exact Ideal.ofBits_zero_f32

/-- The accumulator's update at (p, q): what was there plus the block's rows' contributions. -/
theorem update_apply (cardB : Vec Ideal S10000x128 .f32) (W : Vec Ideal S128x32 .f32) (b : Vec Ideal S1x32 .f32)
    (acc : Vec Ideal S256x32 .f32) (mpB : Vec Ideal S10000x256 .f32) (p : Fin 256) (q : Fin 32) :
    k0_pay2 (F := Ideal) cardB W b acc mpB (ix2 p q)
      = acc (ix2 p q) + ∑ r : Fin 10000, mpB (ix2 r p)
          * Cert.MetaPath.swish ((∑ k : Fin 128, cardB (ix2 r k) * W (ix2 k q)) + b (ix2 (0 : Fin 1) q)) := by
  unfold k0_pay2
  rw [shapeCast_self, addf_apply, mt_apply]
  refine congrArg (acc (ix2 p q) + ·) (Finset.sum_congr rfl fun r _ => ?_)
  rw [truncf_apply, truncf_apply, mulf_apply]
  rw [logistic_apply, addf_apply, cw_apply, shapeCast_self, broadcastTo_1b_ab_apply]
  rfl

/-- The output block at (i, q): pool row i against column q of the accumulator. -/
theorem out_apply (pools : Vec Ideal S4096x256 .f32) (acc : Vec Ideal S256x32 .f32) (i : Fin 4096) (q : Fin 32) :
    k0_pay3 (F := Ideal) pools acc (ix2 i q) = ∑ p : Fin 256, pools (ix2 i p) * acc (ix2 p q) := by
  unfold k0_pay3
  exact pa_apply pools acc i q

end Cert.KernelIdeal.Payload

end
-- ==== Proof.Blocks.lean ====
/-
  What the body's input blocks are, as entries of the program's argument arrays.

  The metapath matrix and the card embeddings are streamed through the region in ten blocks of 10 000 rows: row r of
  block t is card t · 10 000 + r, all columns. The dense weights, the bias row and the pool matrix are each one block,
  the whole array, at every point. The bias reaches the region reshaped from 32 entries to one row of 32.
-/
import proofs.«150793_g73882027425809_cont_9to1c4b_278_4_alg».proof.Proof.Gen.KernelIdeal.Frame
import proofs.«150793_g73882027425809_cont_9to1c4b_278_4_alg».proof.Proof.LibBlockSum
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The five input blocks at a grid point, at their literal shapes. -/
abbrev mpBlk (c : Dev nD) (t : Fin cfg0.N) : Vec F S10000x256 .f32 := iblk m c 0 t
abbrev cardBlk (c : Dev nD) (t : Fin cfg0.N) : Vec F S10000x128 .f32 := iblk m c 1 t
abbrev wBlk (c : Dev nD) (t : Fin cfg0.N) : Vec F S128x32 .f32 := iblk m c 2 t
abbrev biasBlk (c : Dev nD) (t : Fin cfg0.N) : Vec F S1x32 .f32 := iblk m c 3 t
abbrev poolBlk (c : Dev nD) (t : Fin cfg0.N) : Vec F S4096x256 .f32 := iblk m c 4 t

/-- A grid point is one of ten. -/
theorem point_lt (t : Fin cfg0.N) : t.val < 10 := lt_of_lt_of_eq t.isLt (show cfg0.N = 10 from N_0)

/-- The card that row r of block t holds: number t · 10 000 + r. -/
abbrev cardNo (t : Fin cfg0.N) (r : Fin 10000) : Fin 100000 :=
  Cert.BlockSum.pos 10 10000 (by norm_num) ⟨t.val, point_lt t⟩ r

/-- The block index of each input window at each point: the streamed windows move down the rows with the point, the
    others stay at the origin. -/
theorem block_index : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0))

/-- Row r, column p of the metapath block at point t is the metapath matrix at card t · 10 000 + r, column p. -/
theorem mpBlk_apply (c : Dev nD) (t : Fin cfg0.N) (r : Fin 10000) (p : Fin 256) :
    mpBlk m c t (ix2 r p) = m ((c : Thread nD τ).loc main_arg1) (ix2 (cardNo t r) p) := by
  show iblk m c 0 t (ix2 r p) = _
  unfold iblk
  rw [View.read_apply]
  show V m c main_arg1 _ = _
  rw [V_main_arg1]
  refine congrArg _ (funext fun a => Fin.ext ?_)
  match a with
  | ⟨0, _⟩ =>
    show win0_0.index t 0 * 10000 + 1 * r.val = t.val * 10000 + r.val
    rw [(block_index t).1.1]; omega
  | ⟨1, _⟩ =>
    show win0_0.index t 1 * 256 + 1 * p.val = p.val
    rw [(block_index t).1.2]; omega

/-- Row r, coordinate k of the card block at point t is the embedding of card t · 10 000 + r at k. -/
theorem cardBlk_apply (c : Dev nD) (t : Fin cfg0.N) (r : Fin 10000) (k : Fin 128) :
    cardBlk m c t (ix2 r k) = m ((c : Thread nD τ).loc main_arg2) (ix2 (cardNo t r) k) := by
  show iblk m c 1 t (ix2 r k) = _
  unfold iblk
  rw [View.read_apply]
  show V m c main_arg2 _ = _
  rw [V_main_arg2]
  refine congrArg _ (funext fun a => Fin.ext ?_)
  match a with
  | ⟨0, _⟩ =>
    show win0_1.index t 0 * 10000 + 1 * r.val = t.val * 10000 + r.val
    rw [(block_index t).2.1.1]; omega
  | ⟨1, _⟩ =>
    show win0_1.index t 1 * 128 + 1 * k.val = k.val
    rw [(block_index t).2.1.2]; omega

/-- The weights' block is the weight matrix, at every point. -/
theorem wBlk_apply (c : Dev nD) (t : Fin cfg0.N) (k : Fin 128) (q : Fin 32) :
    wBlk m c t (ix2 k q) = m ((c : Thread nD τ).loc main_arg3) (ix2 k q) := by
  show iblk m c 2 t (ix2 k q) = _
  unfold iblk
  rw [View.read_apply]
  show V m c main_arg3 _ = _
  rw [V_main_arg3]
  refine congrArg _ (funext fun a => Fin.ext ?_)
  match a with
  | ⟨0, _⟩ =>
    show win0_2.index t 0 * 128 + 1 * k.val = k.val
    rw [(block_index t).2.2.1.1]; omega
  | ⟨1, _⟩ =>
    show win0_2.index t 1 * 32 + 1 * q.val = q.val
    rw [(block_index t).2.2.1.2]; omega

/-- The pool block is the pool matrix, at every point. -/
theorem poolBlk_apply (c : Dev nD) (t : Fin cfg0.N) (i : Fin 4096) (p : Fin 256) :
    poolBlk m c t (ix2 i p) = m ((c : Thread nD τ).loc main_arg0) (ix2 i p) := by
  show iblk m c 4 t (ix2 i p) = _
  unfold iblk
  rw [View.read_apply]
  show V m c main_arg0 _ = _
  rw [V_main_arg0]
  refine congrArg _ (funext fun a => Fin.ext ?_)
  match a with
  | ⟨0, _⟩ =>
    show win0_4.index t 0 * 4096 + 1 * i.val = i.val
    rw [(block_index t).2.2.2.2.1]; omega
  | ⟨1, _⟩ =>
    show win0_4.index t 1 * 256 + 1 * p.val = p.val
    rw [(block_index t).2.2.2.2.2]; omega

/-- The bias row the region finds is the bias vector reshaped to one row. -/
theorem bias_row (c : Dev nD) :
    (V m c main_v0 : S1x32.Idx → Elt F .f32) = shapeCast S1x32 (m ((c : Thread nD τ).loc main_arg4)) shapeCasts_S32_S1x32 := by
  dsimp only [V, hostOps0]
  after_results
  rfl

/-- The bias block's entry q is the bias vector's entry q, at every point. -/
theorem biasBlk_apply (c : Dev nD) (t : Fin cfg0.N) (q : Fin 32) :
    biasBlk m c t (ix2 (0 : Fin 1) q) = m ((c : Thread nD τ).loc main_arg4) (ix1 q) := by
  show iblk m c 3 t (ix2 (0 : Fin 1) q) = _
  unfold iblk
  rw [View.read_apply]
  show V m c main_v0 _ = _
  rw [bias_row]
  refine (congrArg _ (funext fun a => Fin.ext ?_)).trans (shapeCast_a_1a_apply _ shapeCasts_S32_S1x32 (0 : Fin 1) q)
  match a with
  | ⟨0, _⟩ =>
    show win0_3.index t 0 * 1 + 1 * 0 = 0
    rw [(block_index t).2.2.2.1.1]
  | ⟨1, _⟩ =>
    show win0_3.index t 1 * 32 + 1 * q.val = q.val
    rw [(block_index t).2.2.2.1.2]; omega

end Cert.KernelIdeal.Blocks

end
-- ==== Proof.Accum.lean ====
/-
  The accumulator over the ten grid points, and the output block after the last.

  After the first point the accumulator holds zero plus the first block's contribution; after each later point, what
  it held plus that block's contribution, where block t contributes to entry (p, q) the sum over its 10 000 rows r of
  meta[n, p] · t[n, q] at card n = t · 10 000 + r. An accumulator that adds one block's sum per step holds, after the
  last of ten steps, the sum over all 100 000 cards: the metapath embedding. The last point then stores the pool block
  times this accumulator, which is the specified result.
-/
import proofs.«150793_g73882027425809_cont_9to1c4b_278_4_alg».proof.Proof.Gen.KernelIdeal.Frame
import proofs.«150793_g73882027425809_cont_9to1c4b_278_4_alg».proof.Proof.Spec
import proofs.«150793_g73882027425809_cont_9to1c4b_278_4_alg».proof.Proof.LibBlockSum
import proofs.«150793_g73882027425809_cont_9to1c4b_278_4_alg».proof.Proof.Pieces
import proofs.«150793_g73882027425809_cont_9to1c4b_278_4_alg».proof.Proof.Payload
import proofs.«150793_g73882027425809_cont_9to1c4b_278_4_alg».proof.Proof.Blocks

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.KernelIdeal.Pieces Cert.KernelIdeal.Payload Cert.MetaPath

variable (m : (ℓ : Loc nD τ sig) → Buf (Elt Ideal) ℓ)

/-- The five argument arrays as the program is launched with them. -/
abbrev pools (c : Dev nD) : (⟨2, ![4096, 256]⟩ : Shape).Idx → EReal := m ((c : Thread nD τ).loc main_arg0)
abbrev mpath (c : Dev nD) : (⟨2, ![100000, 256]⟩ : Shape).Idx → EReal := m ((c : Thread nD τ).loc main_arg1)
abbrev cards (c : Dev nD) : (⟨2, ![100000, 128]⟩ : Shape).Idx → EReal := m ((c : Thread nD τ).loc main_arg2)
abbrev weights (c : Dev nD) : (⟨2, ![128, 32]⟩ : Shape).Idx → EReal := m ((c : Thread nD τ).loc main_arg3)
abbrev bias (c : Dev nD) : (⟨1, ![32]⟩ : Shape).Idx → EReal := m ((c : Thread nD τ).loc main_arg4)

/-- Card n's contribution to the metapath embedding at (p, q). -/
def term (c : Dev nD) (p : Fin 256) (q : Fin 32) (n : Fin 100000) : EReal :=
  mpath m c (ix2 n p) * dense (cards m c) (weights m c) (bias m c) n q

/-- One point's update of the accumulator at (p, q): what was there plus the contributions of the block's cards. -/
theorem step_apply (c : Dev nD) (t : Fin cfg0.N) (acc : Vec Ideal S256x32 .f32) (p : Fin 256) (q : Fin 32) :
    k0_pay2 (F := Ideal) (cardBlk m c t) (wBlk m c t) (biasBlk m c t) acc (mpBlk m c t) (ix2 p q)
      = acc (ix2 p q) + ∑ r : Fin 10000, term m c p q (cardNo t r) := by
  rw [update_apply]
  refine congrArg (acc (ix2 p q) + ·) (Finset.sum_congr rfl fun r _ => ?_)
  rw [mpBlk_apply, biasBlk_apply]
  simp only [cardBlk_apply, wBlk_apply]
  rfl

/-! ## What the accumulator and the output block hold after a point, by the point's case -/

/-- After the first point: the update of the zero block. -/
theorem scratch_first (c : Dev nD) (t : Fin cfg0.N) (h0 : t.val % 10 = 0) :
    (outsAt0 m c t.val t.isLt).2
      = k0_pay2 (F := Ideal) (cardBlk m c t) (wBlk m c t) (biasBlk m c t) (k0_pay1 (F := Ideal)) (mpBlk m c t) := by
  have h1 : ¬t.val % 10 = 9 := by omega
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- After any later point: the update of what the point before left. -/
theorem scratch_next (c : Dev nD) (t : Fin cfg0.N) (h0 : ¬t.val % 10 = 0) :
    (outsAt0 m c t.val t.isLt).2
      = k0_pay2 (F := Ideal) (cardBlk m c t) (wBlk m c t) (biasBlk m c t) (outsAt0 m c (t.val - 1) (Nat.lt_of_le_of_lt (Nat.sub_le _ _) t.isLt)).2 (mpBlk m c t) := by
  by_cases h1 : t.val % 10 = 9
  · rw [outsAt0_C m c t h0 h1]
    dsimp only
    exact acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact acc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- After the last point the output block is the pool block times the accumulator as that point leaves it. -/
theorem out_at_last (c : Dev nD) (t : Fin cfg0.N) (h1 : t.val % 10 = 9) :
    (outsAt0 m c t.val t.isLt).1 = k0_pay3 (F := Ideal) (poolBlk m c t) (outsAt0 m c t.val t.isLt).2 := by
  have h0 : ¬t.val % 10 = 0 := by omega
  rw [scratch_next m c t h0, outsAt0_C m c t h0 h1]
  dsimp only
  exact out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-! ## The accumulator after the last point is the metapath embedding -/

/-- Entry (p, q) of the accumulator after point k. -/
def accAt (c : Dev nD) (p : Fin 256) (q : Fin 32) (k : ℕ) (hk : k < 9 + 1) : EReal :=
  (outsAt0 m c k (lt_of_lt_of_eq hk (show 9 + 1 = cfg0.N from N_0.symm))).2 (ix2 p q)

theorem accAt_zero (c : Dev nD) (p : Fin 256) (q : Fin 32) (h : 0 < 9 + 1) :
    accAt m c p q 0 h = 0 + ∑ r : Fin 10000, term m c p q (Cert.BlockSum.pos (9 + 1) 10000 (by norm_num) ⟨0, h⟩ r) := by
  have hN : 0 < cfg0.N := lt_of_lt_of_eq h (show 9 + 1 = cfg0.N from N_0.symm)
  show (outsAt0 m c (⟨0, hN⟩ : Fin cfg0.N).val (⟨0, hN⟩ : Fin cfg0.N).isLt).2 (ix2 p q) = _
  rw [scratch_first m c ⟨0, hN⟩ rfl, step_apply, reset_apply]

theorem accAt_succ (c : Dev nD) (p : Fin 256) (q : Fin 32) (k : ℕ) (h : k + 1 < 9 + 1) :
    accAt m c p q (k + 1) h = accAt m c p q k (Nat.lt_of_succ_lt h)
      + ∑ r : Fin 10000, term m c p q (Cert.BlockSum.pos (9 + 1) 10000 (by norm_num) ⟨k + 1, h⟩ r) := by
  have hN : k + 1 < cfg0.N := lt_of_lt_of_eq h (show 9 + 1 = cfg0.N from N_0.symm)
  show (outsAt0 m c (⟨k + 1, hN⟩ : Fin cfg0.N).val (⟨k + 1, hN⟩ : Fin cfg0.N).isLt).2 (ix2 p q) = _
  rw [scratch_next m c ⟨k + 1, hN⟩ (by show ¬(k + 1) % 10 = 0; omega), step_apply]
  rfl

/-- After the tenth point, entry (p, q) of the accumulator is the sum over all cards: the metapath embedding. -/
theorem acc_total (c : Dev nD) (p : Fin 256) (q : Fin 32) :
    accAt m c p q 9 (Nat.lt_succ_self 9) = pathEmb (mpath m c) (cards m c) (weights m c) (bias m c) p q :=
  Cert.BlockSum.chain_blocks_eq_sum 9 10000 (by norm_num) (term m c p q) (accAt m c p q)
    (accAt_zero m c p q) (accAt_succ m c p q)

/-- The last grid point. -/
abbrev lastPt : Fin cfg0.N := ⟨9, lt_of_lt_of_eq (Nat.lt_succ_self 9) (show 9 + 1 = cfg0.N from N_0.symm)⟩

/-- After the last point the output block is the specified result. -/
theorem out_total (c : Dev nD) :
    (outsAt0 m c (lastPt).val (lastPt).isLt).1
      = result (pools m c) (mpath m c) (cards m c) (weights m c) (bias m c) := by
  funext j
  obtain ⟨i, q, rfl⟩ : ∃ (i : Fin 4096) (q : Fin 32), j = ix2 i q := ⟨j 0, j 1, eq_ix2 j⟩
  rw [out_at_last m c lastPt rfl, out_apply]
  unfold result
  refine Finset.sum_congr rfl fun p _ => ?_
  rw [poolBlk_apply]
  exact congrArg (pools m c (ix2 i p) * ·) (acc_total m c p q)

end Cert.KernelIdeal.Accum

end
-- ==== Proof.KernelValue.lean ====
/-
  The kernel's run, read: its result array ends at the specified function of its arguments.

  The output window is one block, the whole 4096 × 32 array, written back once, after the last grid point. What that
  point leaves in the block is the pool matrix times the completed accumulator, so the array ends holding the
  specified result, and the five argument arrays end as they were launched.
-/
import proofs.«150793_g73882027425809_cont_9to1c4b_278_4_alg».proof.Proof.Gen.KernelIdeal.Value
import proofs.«150793_g73882027425809_cont_9to1c4b_278_4_alg».proof.Proof.Accum

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Blocks Cert.KernelIdeal.Accum Cert.MetaPath

variable (m : (ℓ : Loc nD τ sig) → Buf (Elt Ideal) ℓ) (ρ : Dev nD → PrngReg)

/-- The specified result as contents of the result array. -/
abbrev res (c : Dev nD) : Buf (Elt Ideal) ((c : Thread nD τ).loc main_v1) :=
  result (pools m c) (mpath m c) (cards m c) (weights m c) (bias m c)

/-- The output window's block sits at the array's origin at every point. -/
theorem out_index : ∀ t : Fin cfg0.N, win0_5.index t 0 = 0 ∧ win0_5.index t 1 = 0 :=
  (by decide +kernel : ∀ t : Fin grid0.N, win0_5.index t 0 = 0 ∧ win0_5.index t 1 = 0)

/-- The one write-back, after the last point, writes the specified result: the block is the whole array. -/
theorem flushed_eq (c : Dev nD) (t : Fin cfg0.N) (hf : (cfg0.win 5).flush t = true) :
    (dats m 0 c).flushed 5 t = ((cfg0.win 5).blk t).view.read (Elt Ideal) (res m c) := by
  have h9 : t.val % 10 = 9 := (flush0_5 t).mp hf
  obtain rfl : t = lastPt := Fin.ext (by have := point_lt t; show t.val = 9; omega)
  rw [Cert.KernelIdeal.Value.flushed5, out_total]
  have hz' : (fun a => win0_5.index lastPt a * main_v1.ty.shape.size a) = fun _ => 0 := funext fun a => by
    match a with
    | ⟨0, _⟩ => show win0_5.index lastPt 0 * 4096 = 0; rw [(out_index lastPt).1]
    | ⟨1, _⟩ => show win0_5.index lastPt 1 * 32 = 0; rw [(out_index lastPt).2]
  exact (Memref.read_access_unit_zero (Elt Ideal) main_v1 hz' (fun a => by rw [congrFun hz' a]; simp) (res m c)).symm

/-- Every entry of the result array lies in the block the last point writes back. -/
theorem covered (c : Dev nD) (i : ((cfg0.win 5).arr.view.loc (c.tc : Thread nD τ)).2.ty.Idx) :
    ∃ t : Fin cfg0.N, (cfg0.win 5).flush t = true ∧ i ∈ ((cfg0.win 5).blk t).view.set :=
  ⟨lastPt, (flush0_5 lastPt).mpr rfl, by
    show i ∈ ((View.whole main_v1).slice (win0_5.rect lastPt)).set
    rw [View.set_slice_whole, Rect.mem_set_unit]
    intro a
    have h0 : (i 0 : Nat) < 4096 := (i 0).isLt
    have h1 : (i 1 : Nat) < 32 := (i 1).isLt
    match a with
    | ⟨0, _⟩ =>
      show win0_5.index lastPt 0 * win0_5.size 0 ≤ (i 0 : Nat) ∧ (i 0 : Nat) < win0_5.index lastPt 0 * win0_5.size 0 + win0_5.xsize (grid0.coords lastPt) 0
      rw [(out_index lastPt).1, show win0_5.xsize (grid0.coords lastPt) 0 = 4096 from by decide +kernel]; omega
    | ⟨1, _⟩ =>
      show win0_5.index lastPt 1 * win0_5.size 1 ≤ (i 1 : Nat) ∧ (i 1 : Nat) < win0_5.index lastPt 1 * win0_5.size 1 + win0_5.xsize (grid0.coords lastPt) 1
      rw [(out_index lastPt).2, show win0_5.xsize (grid0.coords lastPt) 1 = 32 from by decide +kernel]; omega⟩

/-- So the result array ends holding the specified result. -/
theorem final (c : Dev nD) : (dats m 0 c).arrAt 5 cfg0.N = res m c :=
  (dats m 0 c).arrAt_eq_of_cover 5 (res m c) (flushed_eq m c) (covered c)

/-- Every weakly fair execution of the kernel terminates with the result array at the specified function of the
    argument arrays, and those unchanged. -/
theorem run : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks (F := Ideal) m ρ)

end Cert.KernelIdeal.KernelValue

end
-- ==== Proof.RefValue.lean ====
/-
  The reference program computes the specified function.

  Read one operation at a time, the reference forms z = card · W + b, then 1 / (1 + e^(-z)) by a negation, an exponential,
  an addition of one and a quotient, multiplies it by z, contracts the transposed metapath matrix with the result over the
  cards, and the pool matrix with that over the metapaths. On the extended reals the quotient 1 / (1 + e^(-z)) is the
  logistic function by definition, so z times it is the swish activation, and the three contractions are the three sums
  of the specification.
-/
import proofs.«150793_g73882027425809_cont_9to1c4b_278_4_alg».proof.Proof.Gen.ReferenceIdeal.Read
import proofs.«150793_g73882027425809_cont_9to1c4b_278_4_alg».proof.Proof.Spec
import Idealize.ShloMosaic.PureOps.IdealRules

noncomputable section

open scoped BigOperators
open Idealize.ShloMosaic Idealize.ShloMosaic.ValueIdx

namespace Cert.ReferenceIdeal.RefValue

open Cert.ReferenceIdeal Cert.ReferenceIdeal.Read Cert.MetaPath

/-- The float literal of the sigmoid's numerator and of its denominator's summand is the number one. -/
theorem one_lit : Ideal.ofBits .f32 0x3F800000#32 = 1 := IdealRules.sign_bit.ideal_onePat .f32

/-- The transformed embedding of card n at column q: the dense layer with swish. -/
theorem transformed_apply (x2 : (⟨S100000x128, .f32⟩ : BufTy).Contents (Elt Ideal)) (x3 : (⟨S128x32, .f32⟩ : BufTy).Contents (Elt Ideal))
    (x4 : (⟨S32, .f32⟩ : BufTy).Contents (Elt Ideal)) (n : Fin 100000) (q : Fin 32) :
    val_main_v10 (F := Ideal) x2 x3 x4 (ix2 n q) = dense x2 x3 x4 n q := by
  have e1 : ∀ k, lidx_main_v0 (ix2 n q) k = ix2 n k := fun k => funext fun a => Fin.ext (by
    match a with
    | ⟨0, _⟩ => rfl
    | ⟨1, _⟩ => rfl)
  have e2 : ∀ k, ridx_main_v0 (ix2 n q) k = ix2 k q := fun k => funext fun a => Fin.ext (by
    match a with
    | ⟨0, _⟩ => rfl
    | ⟨1, _⟩ => rfl)
  have e3 : idx_main_v1 (idx_main_v2 (ix2 n q)) = ix1 q := funext fun a => Fin.ext (by
    match a with
    | ⟨0, _⟩ => rfl)
  have hz : val_main_v3 (F := Ideal) x2 x3 x4 (ix2 n q) = (∑ k : Fin 128, x2 (ix2 n k) * x3 (ix2 k q)) + x4 (ix1 q) := by
    rw [val_main_v3_apply, val_main_v0_apply, val_main_v2_apply, val_main_v1_apply, e3]
    simp only [e1, e2]
    rfl
  rw [val_main_v10_apply, val_main_v9_apply, val_main_v8_apply, val_main_cst_0_apply, val_main_v7_apply, val_main_v6_apply,
    val_main_cst_apply, val_main_v5_apply, val_main_v4_apply, hz]
  unfold dense swish
  simp only [Ideal.mulf_def, Ideal.addf_def, Ideal.hostDivf_def, Ideal.hostUnary_exp_def, Ideal.hostNegf_def, Ideal.negf_def,
    Ideal.ofBits_def, one_lit, logistic_eq_div]

/-- The metapath embedding at (p, q): the contraction over the cards. -/
theorem path_apply (x1 : (⟨S100000x256, .f32⟩ : BufTy).Contents (Elt Ideal)) (x2 : (⟨S100000x128, .f32⟩ : BufTy).Contents (Elt Ideal))
    (x3 : (⟨S128x32, .f32⟩ : BufTy).Contents (Elt Ideal)) (x4 : (⟨S32, .f32⟩ : BufTy).Contents (Elt Ideal)) (p : Fin 256) (q : Fin 32) :
    val_main_v12 (F := Ideal) x1 x2 x3 x4 (ix2 p q) = pathEmb x1 x2 x3 x4 p q := by
  rw [val_main_v12_apply]
  unfold pathEmb
  refine Finset.sum_congr rfl fun n _ => ?_
  have e1 : lidx_main_v12 (ix2 p q) n = ix2 p n := funext fun a => Fin.ext (by
    match a with
    | ⟨0, _⟩ => rfl
    | ⟨1, _⟩ => rfl)
  have e2 : ridx_main_v12 (ix2 p q) n = ix2 n q := funext fun a => Fin.ext (by
    match a with
    | ⟨0, _⟩ => rfl
    | ⟨1, _⟩ => rfl)
  have e3 : idx_main_v11 (ix2 p n) = ix2 n p := funext fun a => Fin.ext (by
    match a with
    | ⟨0, _⟩ => rfl
    | ⟨1, _⟩ => rfl)
  rw [e1, e2, val_main_v11_apply, e3, transformed_apply]

/-- The reference's result is the specified function of its five arguments. -/
theorem result_eq (x0 : (⟨S4096x256, .f32⟩ : BufTy).Contents (Elt Ideal)) (x1 : (⟨S100000x256, .f32⟩ : BufTy).Contents (Elt Ideal))
    (x2 : (⟨S100000x128, .f32⟩ : BufTy).Contents (Elt Ideal)) (x3 : (⟨S128x32, .f32⟩ : BufTy).Contents (Elt Ideal))
    (x4 : (⟨S32, .f32⟩ : BufTy).Contents (Elt Ideal)) :
    val_main_v13 (F := Ideal) x0 x1 x2 x3 x4 = result x0 x1 x2 x3 x4 := by
  funext i
  obtain ⟨a, q, rfl⟩ : ∃ (a : Fin 4096) (q : Fin 32), i = ix2 a q := ⟨i 0, i 1, eq_ix2 i⟩
  rw [val_main_v13_apply]
  unfold result
  refine Finset.sum_congr rfl fun p _ => ?_
  have e1 : lidx_main_v13 (ix2 a q) p = ix2 a p := funext fun b => Fin.ext (by
    match b with
    | ⟨0, _⟩ => rfl
    | ⟨1, _⟩ => rfl)
  have e2 : ridx_main_v13 (ix2 a q) p = ix2 p q := funext fun b => Fin.ext (by
    match b with
    | ⟨0, _⟩ => rfl
    | ⟨1, _⟩ => rfl)
  rw [e1, e2, path_apply]

end Cert.ReferenceIdeal.RefValue

end
-- ==== Proof.lean ====
/-
  A fused metapath-embedding kernel against its three-matmul reference, over the extended reals.

  Both programs compute out = pools · (metaᵀ · swish(card · W + b)), with swish(z) = z · σ(z) and σ the logistic function.
  The reference does it with three whole matrix products and spells σ(z) as 1 / (1 + e^(-z)). The kernel streams the
  100 000 cards through in ten blocks of 10 000 rows, adds each block's contribution metaᵀ_block · swish(card_block · W + b)
  to a 256 × 32 accumulator that it zeroes at the first block, applies the logistic function as one operation, and at
  the last block multiplies the pool matrix by the completed accumulator.

  On the extended reals the two agree entry by entry: the logistic function is the quotient 1 / (1 + e^(-z)) by
  definition; the kernel's narrowing of the second product's operands to a shorter float format is the identity; and the
  accumulator after the tenth block holds the sum over all 100 000 cards, because a finite sum in a commutative monoid
  may be taken block by block. No finiteness of the inputs is needed for any of this, so the precondition is not opened.

  Nothing in the kernel's text had to change for it to be read over the extended reals, so the claim that relates the
  kernel as printed to that reading has no conjunct to prove.
-/
import proofs.«150793_g73882027425809_cont_9to1c4b_278_4_alg».proof.Defs
import proofs.«150793_g73882027425809_cont_9to1c4b_278_4_alg».proof.Proof.Gen.Kernel
import proofs.«150793_g73882027425809_cont_9to1c4b_278_4_alg».proof.Proof.Gen.Kernel.Skeleton
import proofs.«150793_g73882027425809_cont_9to1c4b_278_4_alg».proof.Proof.Gen.Kernel.Launch
import proofs.«150793_g73882027425809_cont_9to1c4b_278_4_alg».proof.Proof.Gen.Kernel.Points
import proofs.«150793_g73882027425809_cont_9to1c4b_278_4_alg».proof.Proof.Gen.Kernel.Frame
import proofs.«150793_g73882027425809_cont_9to1c4b_278_4_alg».proof.Proof.Gen.KernelIdeal
import proofs.«150793_g73882027425809_cont_9to1c4b_278_4_alg».proof.Proof.Gen.KernelIdeal.Skeleton
import proofs.«150793_g73882027425809_cont_9to1c4b_278_4_alg».proof.Proof.Gen.KernelIdeal.Launch
import proofs.«150793_g73882027425809_cont_9to1c4b_278_4_alg».proof.Proof.Gen.KernelIdeal.Points
import proofs.«150793_g73882027425809_cont_9to1c4b_278_4_alg».proof.Proof.Gen.KernelIdeal.Frame
import proofs.«150793_g73882027425809_cont_9to1c4b_278_4_alg».proof.Proof.Gen.ReferenceIdeal
import proofs.«150793_g73882027425809_cont_9to1c4b_278_4_alg».proof.Proof.Gen.Pre_finite_inputs
import proofs.«150793_g73882027425809_cont_9to1c4b_278_4_alg».proof.Proof.Gen.KernelIdeal.Value
import proofs.«150793_g73882027425809_cont_9to1c4b_278_4_alg».proof.Proof.Gen.ReferenceIdeal.Run
import proofs.«150793_g73882027425809_cont_9to1c4b_278_4_alg».proof.Proof.Gen.ReferenceIdeal.Read
import proofs.«150793_g73882027425809_cont_9to1c4b_278_4_alg».proof.Proof.KernelValue
import proofs.«150793_g73882027425809_cont_9to1c4b_278_4_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with what it says of the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the five arguments, both programs end with the result array at
    pools · (metaᵀ · swish(card · W + b)) of those arguments: the kernel by its block-by-block accumulation, the reference by
    its three products, the same function entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelValue.res m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
